-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4194304 : Shape := ⟨2, ![8, 4194304]⟩
abbrev S_ : Shape := ⟨0, ![]⟩

class Facts : Prop where
  bcast_S_S8x4194304 : S_.BroadcastsInDim S8x4194304 (![] : Fin 0 → Fin S8x4194304.rank)
  reducesTo_S8x4194304_S_d0_1 : S8x4194304.ReducesTo [0, 1] S_
  h_S_ : 0 < S_.numel

variable [Facts]

def fn {F : FTy → Type} [FloatOps F] (main_arg0 : FVec F S8x4194304 .f32) (main_arg1 : FVec F S8x4194304 .f32) : IVec S_ 1 :=
  let main_v0 : FVec F S8x4194304 .f32 := Host.absf main_arg0
  let main_cst : FVec F S_ .f32 := constant S_ .f32 0x7F800000#32
  let main_v1 : FVec F S8x4194304 .f32 := broadcastInDim S8x4194304 ![] bcast_S_S8x4194304 main_cst
  let main_v2 : IVec S8x4194304 1 := cmpf .olt main_v0 main_v1
  let main_c : IVec S_ 1 := constantI S_ 1 1#1
  let main_v3 : IVec S_ 1 := (fun x v => Host.reduce IntOp.andi x v reducesTo_S8x4194304_S_d0_1 h_S_) main_v2 main_c
  let main_v4 : FVec F S8x4194304 .f32 := Host.absf main_arg1
  let main_cst_0 : FVec F S_ .f32 := constant S_ .f32 0x7F800000#32
  let main_v5 : FVec F S8x4194304 .f32 := broadcastInDim S8x4194304 ![] bcast_S_S8x4194304 main_cst_0
  let main_v6 : IVec S8x4194304 1 := cmpf .olt main_v4 main_v5
  let main_c_1 : IVec S_ 1 := constantI S_ 1 1#1
  let main_v7 : IVec S_ 1 := (fun x v => Host.reduce IntOp.andi x v reducesTo_S8x4194304_S_d0_1 h_S_) main_v6 main_c_1
  let main_v8 : IVec S_ 1 := andi main_v3 main_v7
  main_v8
-- ==== Kernel.lean ====
abbrev S8x4194304 : Shape := ⟨2, ![8, 4194304]⟩
abbrev S1x1 : Shape := ⟨2, ![1, 1]⟩
abbrev S8x65536 : Shape := ⟨2, ![8, 65536]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S8x4194304, .f32⟩
  | .hbm, ⟨1, _⟩ => ⟨S8x4194304, .f32⟩
  | .hbm, ⟨2, _⟩ => ⟨S1x1, .f32⟩
  | .hbm, ⟨3, _⟩ => ⟨S_, .f32⟩
  | .local _ .vmem, ⟨0, _⟩ => ⟨S8x65536, .f32⟩
  | .local _ .vmem, ⟨1, _⟩ => ⟨S8x65536, .f32⟩
  | .local _ .vmem, ⟨2, _⟩ => ⟨S8x65536, .f32⟩
  | .local _ .vmem, ⟨3, _⟩ => ⟨S8x65536, .f32⟩
  | .local _ .vmem, ⟨4, _⟩ => ⟨S1x1, .f32⟩
  | _, _ => ⟨S8x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S8x65536_S8x65536_0_0 : ∀ a, (![0, 0] : Fin 2 → Nat) a + S8x65536.size a ≤ S8x65536.size a
  h_S8x65536 : 0 < S8x65536.numel
  reduces_S8x65536_S8 : S8x65536.Reduces [1] S8
  shapeCasts_S8_S8x1 : S8.ShapeCasts S8x1
  reduces_S8x1_S1 : S8x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x65536.size a ≤ S8x4194304.size a
  hwx0_0 : ∀ i : grid0.Coords, EltTy.bits .f32 = 32 ∨ (Rect.block (s := S8x4194304) S8x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x65536.size a ≤ S8x4194304.size a
  hwx0_1 : ∀ i : grid0.Coords, EltTy.bits .f32 = 32 ∨ (Rect.block (s := S8x4194304) S8x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4194304 : Shape := ⟨2, ![8, 4194304]⟩
abbrev S4 : Shape := ⟨1, ![4]⟩
abbrev S33554432 : Shape := ⟨1, ![33554432]⟩
abbrev S_ : Shape := ⟨0, ![]⟩
abbrev S33554432x1 : Shape := ⟨2, ![33554432, 1]⟩

abbrev nBuf : Space → Nat
  | .hbm => 63
  | .vmem => 0
  | .smem => 0
  | _ => 0

abbrev bufTy : (tb : Table) → Fin (tcTables nBuf tb) → BufTy
  | .hbm, ⟨0, _⟩ => ⟨S8x4194304, .f32⟩
  | .hbm, ⟨1, _⟩ => ⟨S8x4194304, .f32⟩
  | .hbm, ⟨2, _⟩ => ⟨S4, .f32⟩
  | .hbm, ⟨3, _⟩ => ⟨S33554432, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i1⟩
  | .hbm, ⟨18, _⟩ => ⟨S_, .i32⟩
  | .hbm, ⟨19, _⟩ => ⟨S33554432, .i32⟩
  | .hbm, ⟨20, _⟩ => ⟨S33554432, .i32⟩
  | .hbm, ⟨21, _⟩ => ⟨S33554432, .i32⟩
  | .hbm, ⟨22, _⟩ => ⟨S33554432x1, .i32⟩
  | .hbm, ⟨23, _⟩ => ⟨S33554432, .f32⟩
  | .hbm, ⟨24, _⟩ => ⟨S33554432, .f32⟩
  | .hbm, ⟨25, _⟩ => ⟨S33554432, .f32⟩
  | .hbm, ⟨26, _⟩ => ⟨S_, .f32⟩
  | .hbm, ⟨27, _⟩ => ⟨S33554432, .f32⟩
  | .hbm, ⟨28, _⟩ => ⟨S33554432, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S33554432, .f32⟩
  | .hbm, ⟨33, _⟩ => ⟨S33554432, .f32⟩
  | .hbm, ⟨34, _⟩ => ⟨S_, .f32⟩
  | .hbm, ⟨35, _⟩ => ⟨S33554432, .f32⟩
  | .hbm, ⟨36, _⟩ => ⟨S33554432, .f32⟩
  | .hbm, ⟨37, _⟩ => ⟨S_, .f32⟩
  | .hbm, ⟨38, _⟩ => ⟨S33554432, .f32⟩
  | .hbm, ⟨39, _⟩ => ⟨S33554432, .f32⟩
  | .hbm, ⟨40, _⟩ => ⟨S_, .f32⟩
  | .hbm, ⟨41, _⟩ => ⟨S33554432, .f32⟩
  | .hbm, ⟨42, _⟩ => ⟨S33554432, .i1⟩
  | .hbm, ⟨43, _⟩ => ⟨S_, .f32⟩
  | .hbm, ⟨44, _⟩ => ⟨S33554432, .f32⟩
  | .hbm, ⟨45, _⟩ => ⟨S33554432, .f32⟩
  | .hbm, ⟨46, _⟩ => ⟨S33554432, .f32⟩
  | .hbm, ⟨47, _⟩ => ⟨S_, .f32⟩
  | .hbm, ⟨48, _⟩ => ⟨S33554432, .f32⟩
  | .hbm, ⟨49, _⟩ => ⟨S33554432, .f32⟩
  | .hbm, ⟨50, _⟩ => ⟨S_, .f32⟩
  | .hbm, ⟨51, _⟩ => ⟨S33554432, .f32⟩
  | .hbm, ⟨52, _⟩ => ⟨S33554432, .f32⟩
  | .hbm, ⟨53, _⟩ => ⟨S33554432, .f32⟩
  | .hbm, ⟨54, _⟩ => ⟨S_, .f32⟩
  | .hbm, ⟨55, _⟩ => ⟨S33554432, .f32⟩
  | .hbm, ⟨56, _⟩ => ⟨S33554432, .f32⟩
  | .hbm, ⟨57, _⟩ => ⟨S33554432, .f32⟩
  | .hbm, ⟨58, _⟩ => ⟨S33554432, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8x4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_cst_5 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_cst_7 : Ref sig .tc := ⟨.hbm, 40, rfl⟩
abbrev main_v19 : Ref sig .tc := ⟨.hbm, 41, rfl⟩
abbrev main_v20 : Ref sig .tc := ⟨.hbm, 42, rfl⟩
abbrev main_cst_8 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_v24 : Ref sig .tc := ⟨.hbm, 48, rfl⟩
abbrev main_v25 : Ref sig .tc := ⟨.hbm, 49, rfl⟩
abbrev main_cst_10 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_11 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_12 : Ref sig .tc := ⟨.hbm, 59, rfl⟩
abbrev main_v33 : Ref sig .tc := ⟨.hbm, 60, rfl⟩
abbrev main_cst_13 : Ref sig .tc := ⟨.hbm, 61, rfl⟩
abbrev main_v34 : Ref sig .tc := ⟨.hbm, 62, rfl⟩

abbrev nD : Nat := 1
abbrev τ : Topo := Topo.v7x

variable {F : FTy → Type} [FloatOps F]

class Facts₀ : Prop where
  shapeCasts_S8x4194304_S33554432 : S8x4194304.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  reducesTo_S33554432_S_d0 : S33554432.ReducesTo [0] S_
  h_S_ : 0 < S_.numel
  gather_S4_S33554432x1_S33554432_n_0_n_n_0_1_1_wf : GatherDims.WF S4 S33554432x1 S33554432 [] [0] [] [0] [] 1 ![1]

variable [Facts₀]

def gather_S4_S33554432x1_S33554432_n_0_n_n_0_1_1 : GatherDims S4 S33554432x1 S33554432 where
  offsetDims := []
  collapsedSliceDims := [0]
  operandBatchingDims := []
  startIndicesBatchingDims := []
  startIndexMap := [0]
  indexVectorDim := 1
  sliceSizes := ![1]
  wf := gather_S4_S33554432x1_S33554432_n_0_n_n_0_1_1_wf

class Facts : Prop extends Facts₀ where

variable [Facts]
-- ==== Proof.RefRun.lean ====
/-
  The reference's @main as the list of its 61 operations, the four calls (round, clip twice, where) written
  out at their call sites over each call's own buffers, and its run: every weakly fair execution
  terminates with each buffer at the fold of the operations over the launch contents. The result
  buffer's fold is then named as ONE function `out` of the two argument arrays: the flattened
  arguments, the class weight read from the table at the rounded and clipped truth, the distance,
  the focal weight, the Huber term, their product, its total and the quotient by the element count.
-/
import proofs.«176596_j80341658239296_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A scalar splat to the flat length. -/
abbrev splat {α : Type} (x : S_.Idx → α) : S33554432.Idx → α := broadcastInDim S33554432 ![] bcast_S_S33554432 x

/-- @main's operations, in order. -/
abbrev ops : List (HloOp τ sig (Elt F)) :=
  [ nullary main_cst (fun i => FloatOps.ofBits .f32 (lit0 (S4.rowMajor i))),
    reshape main_arg0 main_v0 rfl shapeCasts_S8x4194304_S33554432,
    reshape main_arg1 main_v1 rfl shapeCasts_S8x4194304_S33554432,
    TRef.unary (.of main_v1) main_call0.v0 Host.roundeven,
    nullary main_cst_0 (constant S_ .f32 0x00000000#32),
    nullary main_cst_1 (constant S_ .f32 0x40400000#32),
    TRef.unary (.of main_cst_0) main_call1.v0 id,
    TRef.unary main_call1.v0 main_call1.v1 (broadcastInDim S33554432 ![] bcast_S_S33554432),
    TRef.binary main_call1.v1 (.of main_v2) main_call1.v2 maximumf,
    TRef.unary (.of main_cst_1) main_call1.v3 id,
    TRef.unary main_call1.v3 main_call1.v4 (broadcastInDim S33554432 ![] bcast_S_S33554432),
    TRef.binary main_call1.v4 main_call1.v2 main_call1.v5 minimumf,
    unary main_v3 main_v4 (fptosi 32 : (⟨S33554432, .f32⟩ : BufTy).Contents (Elt F) → (⟨S33554432, .i32⟩ : BufTy).Contents (Elt F)),
    nullary main_c (constantI S_ 32 0#32),
    unary main_c main_v5 (broadcastInDim S33554432 ![] bcast_S_S33554432 : (⟨S_, .i32⟩ : BufTy).Contents (Elt F) → (⟨S33554432, .i32⟩ : BufTy).Contents (Elt F)),
    binary main_v4 main_v5 main_v6 (cmpi .slt : (⟨S33554432, .i32⟩ : BufTy).Contents (Elt F) → (⟨S33554432, .i32⟩ : BufTy).Contents (Elt F) → (⟨S33554432, .i1⟩ : BufTy).Contents (Elt F)),
    nullary main_c_2 (constantI S_ 32 4#32),
    unary main_c_2 main_v7 (broadcastInDim S33554432 ![] bcast_S_S33554432 : (⟨S_, .i32⟩ : BufTy).Contents (Elt F) → (⟨S33554432, .i32⟩ : BufTy).Contents (Elt F)),
    binary main_v4 main_v7 main_v8 (addi : (⟨S33554432, .i32⟩ : BufTy).Contents (Elt F) → (⟨S33554432, .i32⟩ : BufTy).Contents (Elt F) → (⟨S33554432, .i32⟩ : BufTy).Contents (Elt F)),
    ternary main_v6 main_v8 main_v4 main_v9 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    unary main_v9 main_v10 (broadcastInDim S33554432x1 ![0] bcast_S33554432_S33554432x1_0 : (⟨S33554432, .i32⟩ : BufTy).Contents (Elt F) → (⟨S33554432x1, .i32⟩ : BufTy).Contents (Elt F)),
    binary main_cst main_v10 main_v11 ((fun x i => Host.gather gather_S4_S33554432x1_S33554432_n_0_n_n_0_1_1 x i) : (⟨S4, .f32⟩ : BufTy).Contents (Elt F) → (⟨S33554432x1, .i32⟩ : BufTy).Contents (Elt F) → (⟨S33554432, .f32⟩ : BufTy).Contents (Elt F)),
    binary main_v0 main_v1 main_v12 (subf : (⟨S33554432, .f32⟩ : BufTy).Contents (Elt F) → (⟨S33554432, .f32⟩ : BufTy).Contents (Elt F) → (⟨S33554432, .f32⟩ : BufTy).Contents (Elt F)),
    unary main_v12 main_v13 (Host.absf : (⟨S33554432, .f32⟩ : BufTy).Contents (Elt F) → (⟨S33554432, .f32⟩ : BufTy).Contents (Elt F)),
    nullary main_cst_3 (constant S_ .f32 0x3F000000#32),
    unary main_cst_3 main_v14 (broadcastInDim S33554432 ![] bcast_S_S33554432 : (⟨S_, .f32⟩ : BufTy).Contents (Elt F) → (⟨S33554432, .f32⟩ : BufTy).Contents (Elt F)),
    binary main_v13 main_v14 main_v15 (Host.divf : (⟨S33554432, .f32⟩ : BufTy).Contents (Elt F) → (⟨S33554432, .f32⟩ : BufTy).Contents (Elt F) → (⟨S33554432, .f32⟩ : BufTy).Contents (Elt F)),
    nullary main_cst_4 (constant S_ .f32 0x00000000#32),
    nullary main_cst_5 (constant S_ .f32 0x3F800000#32),
    TRef.unary (.of main_cst_4) main_call2.v0 id,
    TRef.unary main_call2.v0 main_call2.v1 (broadcastInDim S33554432 ![] bcast_S_S33554432),
    TRef.binary main_call2.v1 (.of main_v15) main_call2.v2 maximumf,
    TRef.unary (.of main_cst_5) main_call2.v3 id,
    TRef.unary main_call2.v3 main_call2.v4 (broadcastInDim S33554432 ![] bcast_S_S33554432),
    TRef.binary main_call2.v4 main_call2.v2 main_call2.v5 minimumf,
    nullary main_cst_6 (constant S_ .f32 0x40000000#32),
    unary main_cst_6 main_v17 (broadcastInDim S33554432 ![] bcast_S_S33554432 : (⟨S_, .f32⟩ : BufTy).Contents (Elt F) → (⟨S33554432, .f32⟩ : BufTy).Contents (Elt F)),
    binary main_v16 main_v17 main_v18 (Host.powf : (⟨S33554432, .f32⟩ : BufTy).Contents (Elt F) → (⟨S33554432, .f32⟩ : BufTy).Contents (Elt F) → (⟨S33554432, .f32⟩ : BufTy).Contents (Elt F)),
    nullary main_cst_7 (constant S_ .f32 0x3F000000#32),
    unary main_cst_7 main_v19 (broadcastInDim S33554432 ![] bcast_S_S33554432 : (⟨S_, .f32⟩ : BufTy).Contents (Elt F) → (⟨S33554432, .f32⟩ : BufTy).Contents (Elt F)),
    binary main_v13 main_v19 main_v20 (cmpf .olt : (⟨S33554432, .f32⟩ : BufTy).Contents (Elt F) → (⟨S33554432, .f32⟩ : BufTy).Contents (Elt F) → (⟨S33554432, .i1⟩ : BufTy).Contents (Elt F)),
    nullary main_cst_8 (constant S_ .f32 0x3F000000#32),
    unary main_cst_8 main_v21 (broadcastInDim S33554432 ![] bcast_S_S33554432 : (⟨S_, .f32⟩ : BufTy).Contents (Elt F) → (⟨S33554432, .f32⟩ : BufTy).Contents (Elt F)),
    binary main_v21 main_v13 main_v22 (mulf : (⟨S33554432, .f32⟩ : BufTy).Contents (Elt F) → (⟨S33554432, .f32⟩ : BufTy).Contents (Elt F) → (⟨S33554432, .f32⟩ : BufTy).Contents (Elt F)),
    binary main_v22 main_v13 main_v23 (mulf : (⟨S33554432, .f32⟩ : BufTy).Contents (Elt F) → (⟨S33554432, .f32⟩ : BufTy).Contents (Elt F) → (⟨S33554432, .f32⟩ : BufTy).Contents (Elt F)),
    nullary main_cst_9 (constant S_ .f32 0x3F000000#32),
    unary main_cst_9 main_v24 (broadcastInDim S33554432 ![] bcast_S_S33554432 : (⟨S_, .f32⟩ : BufTy).Contents (Elt F) → (⟨S33554432, .f32⟩ : BufTy).Contents (Elt F)),
    binary main_v23 main_v24 main_v25 (Host.divf : (⟨S33554432, .f32⟩ : BufTy).Contents (Elt F) → (⟨S33554432, .f32⟩ : BufTy).Contents (Elt F) → (⟨S33554432, .f32⟩ : BufTy).Contents (Elt F)),
    nullary main_cst_10 (constant S_ .f32 0x3E800000#32),
    unary main_cst_10 main_v26 (broadcastInDim S33554432 ![] bcast_S_S33554432 : (⟨S_, .f32⟩ : BufTy).Contents (Elt F) → (⟨S33554432, .f32⟩ : BufTy).Contents (Elt F)),
    binary main_v13 main_v26 main_v27 (subf : (⟨S33554432, .f32⟩ : BufTy).Contents (Elt F) → (⟨S33554432, .f32⟩ : BufTy).Contents (Elt F) → (⟨S33554432, .f32⟩ : BufTy).Contents (Elt F)),
    TRef.ternary (.of main_v20) (.of main_v25) (.of main_v27) main_call3.v0 select,
    nullary main_cst_11 (constant S_ .f32 0x3E800000#32),
    unary main_cst_11 main_v29 (broadcastInDim S33554432 ![] bcast_S_S33554432 : (⟨S_, .f32⟩ : BufTy).Contents (Elt F) → (⟨S33554432, .f32⟩ : BufTy).Contents (Elt F)),
    binary main_v29 main_v18 main_v30 (mulf : (⟨S33554432, .f32⟩ : BufTy).Contents (Elt F) → (⟨S33554432, .f32⟩ : BufTy).Contents (Elt F) → (⟨S33554432, .f32⟩ : BufTy).Contents (Elt F)),
    binary main_v30 main_v28 main_v31 (mulf : (⟨S33554432, .f32⟩ : BufTy).Contents (Elt F) → (⟨S33554432, .f32⟩ : BufTy).Contents (Elt F) → (⟨S33554432, .f32⟩ : BufTy).Contents (Elt F)),
    binary main_v31 main_v11 main_v32 (mulf : (⟨S33554432, .f32⟩ : BufTy).Contents (Elt F) → (⟨S33554432, .f32⟩ : BufTy).Contents (Elt F) → (⟨S33554432, .f32⟩ : BufTy).Contents (Elt F)),
    nullary main_cst_12 (constant S_ .f32 0x00000000#32),
    binary main_v32 main_cst_12 main_v33 ((fun x v => Host.reduceAdd x v reducesTo_S33554432_S_d0 h_S_) : (⟨S33554432, .f32⟩ : BufTy).Contents (Elt F) → (⟨S_, .f32⟩ : BufTy).Contents (Elt F) → (⟨S_, .f32⟩ : BufTy).Contents (Elt F)),
    nullary main_cst_13 (constant S_ .f32 0x4C000000#32),
    binary main_v33 main_cst_13 main_v34 (Host.divf : (⟨S_, .f32⟩ : BufTy).Contents (Elt F) → (⟨S_, .f32⟩ : BufTy).Contents (Elt F) → (⟨S_, .f32⟩ : BufTy).Contents (Elt F)) ]

set_option maxRecDepth 2048 in
/-- @main is that straight line: the called functions unfolded at their calls, sequencing reassociated. -/
theorem main_eq (c : Dev nD) : main (F := F) c = seq ops := by
  simp only [main, fn_round.body, fn_clip.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., reshape_bufs_sub .., unary_bufs_sub .., nullary_bufs_sub .., nullary_bufs_sub ..,
    unary_bufs_sub .., unary_bufs_sub .., binary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub ..,
    nullary_bufs_sub .., unary_bufs_sub .., binary_bufs_sub .., binary_bufs_sub .., binary_bufs_sub ..,
    nullary_bufs_sub .., binary_bufs_sub .., nullary_bufs_sub .., binary_bufs_sub ..⟩

/-- The table of class weights, as the program's first line builds it. -/
abbrev table : S4.Idx → F .f32 := fun i => FloatOps.ofBits .f32 (lit0 (S4.rowMajor i))

/-- The class of each flattened truth value, as a float: rounded, then clipped to [0, 3]. -/
def clsF (t : FVec F S33554432 .f32) : FVec F S33554432 .f32 :=
  minimumf (splat (constant S_ .f32 0x40400000#32)) (maximumf (splat (constant S_ .f32 0x00000000#32)) (Host.roundeven t))

/-- The table index of each element: the class as a signed integer, one below zero counted from the end. -/
def clsI (t : FVec F S33554432 .f32) : IVec S33554432 32 :=
  select (cmpi .slt (fptosi 32 (clsF t)) (splat (constantI S_ 32 0#32)))
    (addi (fptosi 32 (clsF t)) (splat (constantI S_ 32 4#32))) (fptosi 32 (clsF t))

/-- The class weight of each element: the table read at that index. -/
def weights (t : FVec F S33554432 .f32) : FVec F S33554432 .f32 :=
  Host.gather gather_S4_S33554432x1_S33554432_n_0_n_n_0_1_1 (table (F := F))
    (broadcastInDim S33554432x1 ![0] bcast_S33554432_S33554432x1_0 (clsI t))

/-- The distance of each element. -/
def distV (p t : FVec F S33554432 .f32) : FVec F S33554432 .f32 := Host.absf (subf p t)

/-- The focal weight of each element. -/
def focalV (d : FVec F S33554432 .f32) : FVec F S33554432 .f32 :=
  Host.powf
    (minimumf (splat (constant S_ .f32 0x3F800000#32))
      (maximumf (splat (constant S_ .f32 0x00000000#32)) (Host.divf d (splat (constant S_ .f32 0x3F000000#32)))))
    (splat (constant S_ .f32 0x40000000#32))

/-- The Huber term of each element. -/
def huberV (d : FVec F S33554432 .f32) : FVec F S33554432 .f32 :=
  select (cmpf .olt d (splat (constant S_ .f32 0x3F000000#32)))
    (Host.divf (mulf (mulf (splat (constant S_ .f32 0x3F000000#32)) d) d) (splat (constant S_ .f32 0x3F000000#32)))
    (subf d (splat (constant S_ .f32 0x3E800000#32)))

/-- The loss of each element. -/
def lossV (p t : FVec F S33554432 .f32) : FVec F S33554432 .f32 :=
  mulf (mulf (mulf (splat (constant S_ .f32 0x3E800000#32)) (focalV (distV p t))) (huberV (distV p t))) (weights t)

/-- The mean loss: the total of the flattened elements' losses over the element count. -/
def out (a0 a1 : FVec F S8x4194304 .f32) : FVec F S_ .f32 :=
  Host.divf
    (Host.reduceAdd (lossV (shapeCast S33554432 a0 shapeCasts_S8x4194304_S33554432) (shapeCast S33554432 a1 shapeCasts_S8x4194304_S33554432))
      (constant S_ .f32 0x00000000#32) reducesTo_S33554432_S_d0 h_S_)
    (constant S_ .f32 0x4C000000#32)

attribute [local irreducible] Host.reduceAdd Host.gather in
set_option maxRecDepth 8192 in
/-- The fold at the result buffer is `out` of the argument buffers: each operation's result substituted for its buffer. -/
theorem out_eq (V : Valuation τ sig (Elt F)) :
    after ops V (main_v34 : DevRef τ sig) = out (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- From any memory with zero counters: every weakly fair execution of @main terminates, with the result at
    `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.Consts.lean ====
/-
  The float literals both programs spell, as the extended reals their bit patterns denote: the Huber
  threshold 1/2 and its reciprocal 2, the offset 1/4, the clip bounds 0, 1 and 3, the class thresholds
  1/2, 3/2 and 5/2, the four class weights 1, 4, 3, 2, and the element count 2^25 with its reciprocal
  2^-25 (both exact binary values, so the kernel's product and the reference's quotient agree).
-/
import Idealize.ShloMosaic.PureOps.Ideal

noncomputable section

namespace Cert.FocalHuber.Lit

open Idealize.ShloMosaic

theorem zero : Ideal.ofBits .f32 0x00000000#32 = ((0 : ℝ) : EReal) := by
  simp [Ideal.ofBits, Ideal.ieee]

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem three : Ideal.ofBits .f32 0x40400000#32 = ((3 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem quarter : Ideal.ofBits .f32 0x3E800000#32 = ((1 / 4 : ℝ) : EReal) := by
  simp [Ideal.ofBits, Ideal.ieee, -EReal.coe_mul]; norm_num

theorem threeHalves : Ideal.ofBits .f32 0x3FC00000#32 = ((3 / 2 : ℝ) : EReal) := by
  simp [Ideal.ofBits, Ideal.ieee, -EReal.coe_mul]; norm_num

theorem fiveHalves : Ideal.ofBits .f32 0x40200000#32 = ((5 / 2 : ℝ) : EReal) := by
  simp [Ideal.ofBits, Ideal.ieee, -EReal.coe_mul]; norm_num

/-- The number of elements, 8 · 4194304 = 2^25. -/
theorem count : Ideal.ofBits .f32 0x4C000000#32 = ((33554432 : ℝ) : EReal) := by
  simp [Ideal.ofBits, Ideal.ieee, -EReal.coe_mul]; norm_num

/-- Its reciprocal 2^-25, an exact binary value. -/
theorem invCount : Ideal.ofBits .f32 0x33000000#32 = ((1 / 33554432 : ℝ) : EReal) := by
  simp [Ideal.ofBits, Ideal.ieee, -EReal.coe_mul]; norm_num

end Cert.FocalHuber.Lit

end
-- ==== Proof.Elt.lean ====
/-
  The loss of ONE element, as both programs compute it on the extended reals, and that the two spellings
  are one function.

  With d = |p - t|: the focal weight is the square of d / (1/2) clipped to [0, 1]; the Huber term is
  (1/2) d^2 / (1/2) below the threshold 1/2 and d - 1/4 from it on; the class is t rounded to the
  nearest integer (ties to even) and clipped to [0, 3], and its weight is read from the table
  (1, 4, 3, 2). The element's loss is ((1/4 · focal) · Huber) · weight.

  The kernel multiplies by 2 where the reference divides by 1/2, squares by a product where the
  reference raises to the power 2, and selects the weight by the thresholds 1/2, 3/2, 5/2 where the
  reference converts the class to an integer and indexes the table. Division by a nonzero real is the
  product with its reciprocal on every extended real; the clipped ratio is a real in [0, 1], on which the
  real power 2 is the product; the clipped class is one of the integers 0, 1, 2, 3 whatever t is
  (an infinity clips to an end), and at each of the four the two weight rules are evaluated.
  None of this asks the inputs to be finite.
-/
import Idealize.ShloMosaic.PureOps.Ideal
import Idealize.ShloMosaic.PureOps.Ideal.Laws
import Idealize.ShloMosaic.Lib.ValueIdx
import proofs.«176596_j80341658239296_1_alg».proof.Proof.Consts

noncomputable section

namespace Cert.FocalHuber

open Idealize.ShloMosaic

/-- A float literal's value. -/
abbrev lit (b : BitVec 32) : EReal := Ideal.ofBits .f32 b

theorem lit_zero : lit 0x00000000#32 = ((0 : ℝ) : EReal) := Lit.zero
theorem lit_one : lit 0x3F800000#32 = ((1 : ℝ) : EReal) := Lit.one
theorem lit_two : lit 0x40000000#32 = ((2 : ℝ) : EReal) := Lit.two
theorem lit_three : lit 0x40400000#32 = ((3 : ℝ) : EReal) := Lit.three
theorem lit_half : lit 0x3F000000#32 = ((1 / 2 : ℝ) : EReal) := Lit.half
theorem lit_threeHalves : lit 0x3FC00000#32 = ((3 / 2 : ℝ) : EReal) := Lit.threeHalves
theorem lit_fiveHalves : lit 0x40200000#32 = ((5 / 2 : ℝ) : EReal) := Lit.fiveHalves

/-- The distance |p - t|. -/
def dist (p t : EReal) : EReal := max (p - t) (-(p - t))

/-- x clipped to [0, 1]. -/
def clip01 (x : EReal) : EReal := min (lit 0x3F800000#32) (max (lit 0x00000000#32) x)

/-- The focal weight, by a product with 2 and a product of the clipped ratio with itself. -/
def focalK (d : EReal) : EReal := clip01 (d * lit 0x40000000#32) * clip01 (d * lit 0x40000000#32)

/-- The focal weight, by a quotient by 1/2 and the power 2. -/
def focalR (d : EReal) : EReal := Ideal.pow (clip01 (Ideal.div d (lit 0x3F000000#32))) (lit 0x40000000#32)

/-- The Huber term, its quadratic branch closed by a product with 2. -/
def huberK (d : EReal) : EReal :=
  Scalar.select (Ideal.cmp .olt d (lit 0x3F000000#32)) (lit 0x3F000000#32 * d * d * lit 0x40000000#32) (d - lit 0x3E800000#32)

/-- The Huber term, its quadratic branch closed by a quotient by 1/2. -/
def huberR (d : EReal) : EReal :=
  Scalar.select (Ideal.cmp .olt d (lit 0x3F000000#32)) (Ideal.div (lit 0x3F000000#32 * d * d) (lit 0x3F000000#32)) (d - lit 0x3E800000#32)

/-- The class of t: rounded to nearest (ties to even), clipped to [0, 3]. -/
def cls (t : EReal) : EReal := min (lit 0x40400000#32) (max (lit 0x00000000#32) (Ideal.liftRound Ideal.roundHalfEven t))

/-- The class weight by thresholds: 1 below 1/2, 4 below 3/2, 3 below 5/2, else 2. -/
def weightK (r : EReal) : EReal :=
  Scalar.select (Ideal.cmp .olt r (lit 0x3F000000#32)) (lit 0x3F800000#32)
    (Scalar.select (Ideal.cmp .olt r (lit 0x3FC00000#32)) (lit 0x40800000#32)
      (Scalar.select (Ideal.cmp .olt r (lit 0x40200000#32)) (lit 0x40400000#32) (lit 0x40000000#32)))

/-- The table of class weights 1, 4, 3, 2, as words. -/
def classWord : Fin 4 → BitVec 32 := ![0x3F800000#32, 0x40800000#32, 0x40400000#32, 0x40000000#32]

/-- An index below zero counts from the table's end. -/
def wrapIdx (k : BitVec 32) : BitVec 32 := Scalar.select (IntOp.cmpi .slt k 0#32) (IntOp.addi k 4#32) k

/-- A signed index clamped into the table's range. -/
def clampIdx (k : BitVec 32) : Fin 4 := ⟨min k.toInt.toNat 3, by omega⟩

/-- The table's entry at a signed index, clamped into the table. -/
def tableAt (k : BitVec 32) : EReal := lit (classWord (clampIdx k))

/-- The class weight by conversion to an integer and a read of the table. -/
def weightR (r : EReal) : EReal := tableAt (wrapIdx (Ideal.fptosi 32 r))

/-- One element's loss, the kernel's spelling. -/
def eltK (p t : EReal) : EReal :=
  lit 0x3E800000#32 * focalK (dist p t) * huberK (dist p t) * weightK (cls t)

/-- One element's loss, the reference's spelling. -/
def eltR (p t : EReal) : EReal :=
  lit 0x3E800000#32 * focalR (dist p t) * huberR (dist p t) * weightR (cls t)

/-- Dividing by 1/2 is multiplying by 2, on every extended real. -/
theorem div_half (x : EReal) : Ideal.div x (lit 0x3F000000#32) = x * lit 0x40000000#32 := by
  rw [lit_half, lit_two, Ideal.div_coe (by norm_num : (1 / 2 : ℝ) ≠ 0)]
  norm_num

/-- A value clipped to [0, 1] is a real number. -/
theorem clip01_real (x : EReal) : ∃ r : ℝ, clip01 x = (r : EReal) := by
  have h1 : clip01 x ≤ ((1 : ℝ) : EReal) := by
    unfold clip01; rw [lit_one]; exact min_le_left _ _
  have h0 : ((0 : ℝ) : EReal) ≤ clip01 x := by
    unfold clip01; rw [lit_one, lit_zero]
    exact le_min (by exact_mod_cast (zero_le_one : (0 : ℝ) ≤ 1)) (le_max_left _ _)
  refine ⟨(clip01 x).toReal, (EReal.coe_toReal ?_ ?_).symm⟩
  · exact ne_top_of_le_ne_top (EReal.coe_ne_top 1) h1
  · exact ne_bot_of_le_ne_bot (EReal.coe_ne_bot 0) h0

theorem focalR_eq (d : EReal) : focalR d = focalK d := by
  unfold focalR focalK
  rw [div_half]
  obtain ⟨r, hr⟩ := clip01_real (d * lit 0x40000000#32)
  rw [hr, lit_two, Ideal.pow_coe_coe, ← EReal.coe_mul]
  congr 1
  show r ^ (2 : ℝ) = r * r
  rw [Real.rpow_two, sq]

theorem huberR_eq (d : EReal) : huberR d = huberK d := by
  unfold huberR huberK
  rw [div_half]

/-- An integer clipped to [0, 3] is one of 0, 1, 2, 3. -/
theorem clip03_int (z : ℤ) : ∃ k : ℤ, 0 ≤ k ∧ k ≤ 3 ∧
    min ((3 : ℝ) : EReal) (max ((0 : ℝ) : EReal) ((z : ℝ) : EReal)) = ((k : ℝ) : EReal) := by
  rcases le_total z 0 with h | h
  · refine ⟨0, le_refl _, by norm_num, ?_⟩
    rw [max_eq_left (by exact_mod_cast h), min_eq_right (by exact_mod_cast (by norm_num : (0 : ℝ) ≤ 3))]
    norm_num
  · rcases le_total z 3 with h3 | h3
    · refine ⟨z, h, h3, ?_⟩
      rw [max_eq_right (by exact_mod_cast h), min_eq_right (by exact_mod_cast h3)]
    · refine ⟨3, by norm_num, le_refl _, ?_⟩
      rw [max_eq_right (by exact_mod_cast h), min_eq_left (by exact_mod_cast h3)]
      norm_num

/-- The class of any extended real is one of the integers 0, 1, 2, 3: a real rounds to an integer, which
    is clipped; -∞ clips to 0 and +∞ to 3. -/
theorem cls_cases (t : EReal) : ∃ k : ℤ, 0 ≤ k ∧ k ≤ 3 ∧ cls t = ((k : ℝ) : EReal) := by
  unfold cls
  rw [lit_three, lit_zero]
  induction t using EReal.rec with
  | bot =>
    refine ⟨0, le_refl _, by norm_num, ?_⟩
    rw [Ideal.liftRound_bot, max_eq_left bot_le, min_eq_right (by exact_mod_cast (by norm_num : (0 : ℝ) ≤ 3))]
    norm_num
  | coe r =>
    rw [Ideal.liftRound_coe]
    exact clip03_int _
  | top =>
    refine ⟨3, by norm_num, le_refl _, ?_⟩
    rw [Ideal.liftRound_top, max_eq_right le_top, min_eq_left le_top]
    norm_num

/-- An integer in [0, 3] converts to itself. -/
theorem fptosi_int (k : ℤ) (h0 : 0 ≤ k) (h3 : k ≤ 3) : Ideal.fptosi 32 ((k : ℝ) : EReal) = BitVec.ofInt 32 k := by
  unfold Ideal.fptosi
  rw [Ideal.toIntClamped_coe, if_pos (by exact_mod_cast h0), Int.floor_intCast]
  congr 1
  norm_num
  omega

/-- The strict comparison of two reals, when it holds, -/
theorem cmp_olt_of_lt {a b : ℝ} (h : a < b) : Ideal.cmp .olt (a : EReal) (b : EReal) = 1#1 := by
  show BitVec.ofBool (decide ((a : EReal) < (b : EReal))) = 1#1
  rw [decide_eq_true (EReal.coe_lt_coe_iff.mpr h)]; rfl

/-- and when it does not. -/
theorem cmp_olt_of_not_lt {a b : ℝ} (h : ¬a < b) : Ideal.cmp .olt (a : EReal) (b : EReal) = 0#1 := by
  show BitVec.ofBool (decide ((a : EReal) < (b : EReal))) = 0#1
  rw [decide_eq_false (fun h' => h (EReal.coe_lt_coe_iff.mp h'))]; rfl

/-- At each of the four classes the table read and the threshold rule give the same weight. -/
theorem weightR_eq (t : EReal) : weightR (cls t) = weightK (cls t) := by
  obtain ⟨k, h0, h3, hk⟩ := cls_cases t
  rw [hk]
  unfold weightR
  rw [fptosi_int k h0 h3]
  unfold weightK
  rw [lit_half, lit_threeHalves, lit_fiveHalves]
  interval_cases k
  · have hi : tableAt (wrapIdx (BitVec.ofInt 32 0)) = lit 0x3F800000#32 := by
      unfold tableAt; congr 1
    rw [hi, cmp_olt_of_lt (by norm_num : (((0 : ℤ) : ℝ)) < 1 / 2), ValueIdx.select_one]
  · have hi : tableAt (wrapIdx (BitVec.ofInt 32 1)) = lit 0x40800000#32 := by
      unfold tableAt; congr 1
    rw [hi, cmp_olt_of_not_lt (by norm_num : ¬(((1 : ℤ) : ℝ)) < 1 / 2),
      cmp_olt_of_lt (by norm_num : (((1 : ℤ) : ℝ)) < 3 / 2), ValueIdx.select_zero, ValueIdx.select_one]
  · have hi : tableAt (wrapIdx (BitVec.ofInt 32 2)) = lit 0x40400000#32 := by
      unfold tableAt; congr 1
    rw [hi, cmp_olt_of_not_lt (by norm_num : ¬(((2 : ℤ) : ℝ)) < 1 / 2),
      cmp_olt_of_not_lt (by norm_num : ¬(((2 : ℤ) : ℝ)) < 3 / 2),
      cmp_olt_of_lt (by norm_num : (((2 : ℤ) : ℝ)) < 5 / 2), ValueIdx.select_zero, ValueIdx.select_zero, ValueIdx.select_one]
  · have hi : tableAt (wrapIdx (BitVec.ofInt 32 3)) = lit 0x40000000#32 := by
      unfold tableAt; congr 1
    rw [hi, cmp_olt_of_not_lt (by norm_num : ¬(((3 : ℤ) : ℝ)) < 1 / 2),
      cmp_olt_of_not_lt (by norm_num : ¬(((3 : ℤ) : ℝ)) < 3 / 2),
      cmp_olt_of_not_lt (by norm_num : ¬(((3 : ℤ) : ℝ)) < 5 / 2), ValueIdx.select_zero, ValueIdx.select_zero, ValueIdx.select_zero]

/-- The two spellings of an element's loss are one function. -/
theorem eltR_eq (p t : EReal) : eltR p t = eltK p t := by
  unfold eltR eltK
  rw [focalR_eq, huberR_eq, weightR_eq]

end Cert.FocalHuber

end
-- ==== Proof.RefValue.lean ====
/-
  The reference's result, read on the extended reals: the total, over every (row, column) of the
  [8, 4194304] arguments, of the element's loss in the reference's spelling, from the literal zero,
  divided by the element count.

  The flattening is a bijection between the flat positions and the (row, column) pairs, so the total over
  the flat array of a function of the flattened arguments IS the total over the pairs of that function of
  the arguments: no position arithmetic is needed. The one operation that is not elementwise is the
  table read: the gather of a one-dimensional table at a column of indices reads, at each position, the
  table at that position's index, taken signed and clamped into the table.
-/
import proofs.«176596_j80341658239296_1_alg».proof.Proof.RefRun
import proofs.«176596_j80341658239296_1_alg».proof.Proof.Elt
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open Cert.FocalHuber

/-- The position (i, 0) of the index column. -/
abbrev colIdx (y : S33554432.Idx) : S33554432x1.Idx := ix2 ⟨(y 0).val, (y 0).isLt⟩ ⟨0, Nat.one_pos⟩

/-- The table read at position y: the table's entry at the index stored at (y, 0), signed, clamped to [0, 3]. -/
theorem gather_apply {α : Type} (x : S4.Idx → α) (idx : IVec S33554432x1 32) (y : S33554432.Idx) :
    Host.gather gather_S4_S33554432x1_S33554432_n_0_n_n_0_1_1 x idx y
      = x (ix1 (clampIdx (idx (colIdx y)))) := by
  unfold Host.gather
  congr 1
  funext a
  obtain rfl : a = 0 := Subsingleton.elim _ _
  refine Fin.ext ?_
  show gather_S4_S33554432x1_S33554432_n_0_n_n_0_1_1.start y idx 0
      + gather_S4_S33554432x1_S33554432_n_0_n_n_0_1_1.batchCoord y 0
      + gather_S4_S33554432x1_S33554432_n_0_n_n_0_1_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4_S33554432x1_S33554432_n_0_n_n_0_1_1.startIndexMap from List.mem_singleton.mpr rfl)]
  have hsi : gather_S4_S33554432x1_S33554432_n_0_n_n_0_1_1.siIdx y
      ⟨List.idxOf (0 : Fin 1) gather_S4_S33554432x1_S33554432_n_0_n_n_0_1_1.startIndexMap,
        List.idxOf_lt_length_iff.2 (List.mem_singleton.mpr rfl)⟩ = colIdx y := by
    funext b; refine Fin.ext ?_
    match b with
    | ⟨0, _⟩ => rfl
    | ⟨1, _⟩ => rfl
  rw [hsi]
  rfl

/-- The table's entries are the four class weights. -/
theorem table_apply (k : Fin 4) : table (F := Ideal) (ix1 k) = lit (classWord k) := by
  fin_cases k <;> rfl

/-- The index column at (y, 0) holds the index of position y. -/
theorem col_apply (v : IVec S33554432 32) (y : S33554432.Idx) :
    broadcastInDim S33554432x1 ![0] bcast_S33554432_S33554432x1_0 v (colIdx y) = v y := by
  unfold broadcastInDim
  congr 1
  funext a
  obtain rfl : a = 0 := Subsingleton.elim _ _
  rfl

/-- The class weight of position i is the table read at its class. -/
theorem weights_apply (t : FVec Ideal S33554432 .f32) (i : S33554432.Idx) :
    weights t i = weightR (cls (t i)) := by
  unfold weights
  rw [gather_apply, col_apply, table_apply]
  rfl

/-- The loss of position i is the element's loss, the reference's spelling. -/
theorem lossV_apply (p t : FVec Ideal S33554432 .f32) (i : S33554432.Idx) :
    lossV p t i = eltR (p i) (t i) := by
  unfold lossV
  rw [mulf_apply, weights_apply]
  rfl

/-- The host's total of a flat vector from the literal zero, divided by the literal count, on the extended
    reals: zero plus the sum of every element, over the count. -/
theorem mean_apply (v : FVec Ideal S33554432 .f32) (j : S_.Idx) :
    Host.divf (Host.reduceAdd v (constant S_ .f32 0x00000000#32) reducesTo_S33554432_S_d0 h_S_) (constant S_ .f32 0x4C000000#32) j
      = Ideal.div (lit 0x00000000#32 + ∑ i : S33554432.Idx, v i) (lit 0x4C000000#32) := by
  unfold Host.divf Host.reduceAdd
  rw [Ideal.hostDivf_def, Ideal.hostReduceAdd_def, Ideal.hostReduceAdd_total _ (fun b => b.elim0)]
  rfl

/-- The mean loss is the total over every (row, column) of the element's loss, from zero, over the count. -/
theorem out_apply (a0 a1 : FVec Ideal S8x4194304 .f32) (j : S_.Idx) :
    out (F := Ideal) a0 a1 j
      = Ideal.div (lit 0x00000000#32 + ∑ k : S8x4194304.Idx, eltR (a0 k) (a1 k)) (lit 0x4C000000#32) := by
  unfold out
  rw [mean_apply]
  refine congrArg (fun s => Ideal.div (lit 0x00000000#32 + s) (lit 0x4C000000#32)) ?_
  rw [← Equiv.sum_comp (Shape.reshapeEquiv shapeCasts_S8x4194304_S33554432) fun k => eltR (a0 k) (a1 k)]
  refine Finset.sum_congr rfl fun i _ => ?_
  rw [lossV_apply]
  rfl

end Cert.ReferenceIdeal.RefValue

end
-- ==== Proof.KernelPieces.lean ====
/-
  What the kernel body leaves in the one-element output buffer, case by case, as a value.

  At every grid point the body forms the block's contribution and adds it to what the buffer holds.
  At the first point it has stored a zero just before, so the buffer ends at zero plus the
  contribution; at a middle point it ends at what the point before left plus the contribution; at the last
  point that sum is read back once more and stored multiplied by the reciprocal of the element count.
  Each case's stores cover the whole (one-element) buffer, so the buffer's contents are the last store's
  value, and a load that follows a store reads that store's value.
-/
import proofs.«176596_j80341658239296_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One point's update: the block's contribution (of the prediction block x0 and the truth block x1) added
    to the accumulator. -/
abbrev step (x0 x1 : Vec F S8x65536 .f32) (acc : Vec F S1x1 .f32) : Vec F S1x1 .f32 :=
  k0_pay2 (k0_pay5 x0 x1) (k0_pay6 x0 x1) (k0_pay7 x1) acc

/-- The first point: the zero just stored is read back, and the update of it is left. -/
theorem out_A (c : Dev nD) (i : grid0.Coords) (a1 : Memref sig .tc .vmem S8x65536 .f32) (h1 : a1.IsWhole)
    (a2 : Memref sig .tc .vmem S8x65536 .f32) (h2 : a2.IsWhole) (a3 : Memref sig .tc .vmem S1x1 .f32) (h3 : a3.IsWhole)
    (hc0 : cond0_0 i) (hc1 : ¬cond0_1 i) (x0 x1 : Vec F S8x65536 .f32) :
    out0_A_2 c i a1 h1 a2 h2 a3 h3 hc0 hc1 x0 x1 = step x0 x1 (k0_pay1 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8x65536) hz,
    View.ld_unit_zero (S := S1x1) hz]

/-- A middle point: the update of what the buffer held. -/
theorem out_B (c : Dev nD) (i : grid0.Coords) (a1 : Memref sig .tc .vmem S8x65536 .f32) (h1 : a1.IsWhole)
    (a2 : Memref sig .tc .vmem S8x65536 .f32) (h2 : a2.IsWhole) (a3 : Memref sig .tc .vmem S1x1 .f32) (h3 : a3.IsWhole)
    (hc0 : ¬cond0_0 i) (hc1 : ¬cond0_1 i) (x0 x1 : Vec F S8x65536 .f32) (xo : Vec F S1x1 .f32) :
    out0_B_2 c i a1 h1 a2 h2 a3 h3 hc0 hc1 x0 x1 xo = step x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero hz]
  simp only [View.readAt_eq_ld, h1.read_unread, h2.read_unread, h3.read_unread, View.ld_unit_zero (S := S8x65536) hz,
    View.ld_unit_zero (S := S1x1) hz]

/-- The last point: the update is stored, read back, and left multiplied by the reciprocal count. -/
theorem out_C (c : Dev nD) (i : grid0.Coords) (a1 : Memref sig .tc .vmem S8x65536 .f32) (h1 : a1.IsWhole)
    (a2 : Memref sig .tc .vmem S8x65536 .f32) (h2 : a2.IsWhole) (a3 : Memref sig .tc .vmem S1x1 .f32) (h3 : a3.IsWhole)
    (hc0 : ¬cond0_0 i) (hc1 : cond0_1 i) (x0 x1 : Vec F S8x65536 .f32) (xo : Vec F S1x1 .f32) :
    out0_C_2 c i a1 h1 a2 h2 a3 h3 hc0 hc1 x0 x1 xo = k0_pay3 (step x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S8x65536) hz,
    View.ld_unit_zero (S := S1x1) hz]

end Cert.KernelIdeal.Pieces

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBlock.lean ====
/-
  One grid point's update, read on the extended reals: the accumulator plus the block's total, over its 8
  rows and 65536 lanes, of the element's loss in the kernel's spelling. The body sums each row's lanes, lays
  the eight row totals out as a column, sums the column, and lays the total out as a one-element array;
  each reduction over one axis is the finite sum over that axis's coordinates. Also the two other stored
  values: the zero of the first point and the product with the reciprocal count of the last.
-/
import proofs.«176596_j80341658239296_1_alg».proof.Proof.KernelPieces
import proofs.«176596_j80341658239296_1_alg».proof.Proof.Elt
import proofs.«176596_j80341658239296_1_alg».proof.Proof.LibColumn
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Block

open Cert.KernelIdeal Cert.KernelIdeal.Gen Cert.KernelIdeal.Pieces Cert.FocalHuber

/-- The elementwise loss the body reduces: a quarter of the focal weight, times the Huber term, times the class weight. -/
abbrev lossBlock (x0 x1 : Vec Ideal S8x65536 .f32) : FVec Ideal S8x65536 .f32 :=
  mulf (mulf (mulf (broadcast S8x65536 (Scalar.ofBits .f32 0x3E800000#32)) (k0_pay5 x0 x1)) (k0_pay6 x0 x1)) (k0_pay7 x1)

/-- At (r, l) it is the element's loss of the two blocks' entries there. -/
theorem lossBlock_apply (x0 x1 : Vec Ideal S8x65536 .f32) (r : Fin 8) (l : Fin 65536) :
    lossBlock x0 x1 (ix2 r l) = eltK (x0 (ix2 r l)) (x1 (ix2 r l)) := rfl

/-- Row r's lane sum. -/
theorem rowSum_apply (w : FVec Ideal S8x65536 .f32) (r : Fin 8) :
    multiReduction .add [1] S8 w 0x00000000#32 reduces_S8x65536_S8 (.inl rfl) rfl (ix1 r) = ∑ l : Fin 65536, w (ix2 r l) := by
  refine (Ideal.multiReduction_add_single _ _ _ _ _ _).trans ?_
  refine Finset.sum_congr rfl fun l _ => congrArg w ?_
  funext a
  match a with
  | ⟨0, _⟩ => rfl
  | ⟨1, _⟩ => rfl

/-- The column's sum over its rows. -/
theorem colSum_apply (w : FVec Ideal S8x1 .f32) (v : Fin 1) :
    multiReduction .add [0] S1 w 0x00000000#32 reduces_S8x1_S1 (.inl rfl) rfl (ix1 v) = ∑ r : Fin 8, w (ix2 r v) := by
  refine (Ideal.multiReduction_add_single _ _ _ _ _ _).trans ?_
  refine Finset.sum_congr rfl fun r _ => congrArg w ?_
  funext a
  match a with
  | ⟨0, _⟩ => rfl
  | ⟨1, _⟩ => rfl

/-- One point's update at the buffer's one index: the accumulator plus the block's total loss. -/
theorem step_apply (x0 x1 : Vec Ideal S8x65536 .f32) (acc : Vec Ideal S1x1 .f32) (u v : Fin 1) :
    step x0 x1 acc (ix2 u v) = acc (ix2 u v) + ∑ r : Fin 8, ∑ l : Fin 65536, eltK (x0 (ix2 r l)) (x1 (ix2 r l)) := by
  show k0_pay2 (k0_pay5 x0 x1) (k0_pay6 x0 x1) (k0_pay7 x1) acc (ix2 u v) = _
  unfold k0_pay2
  dsimp only
  rw [addf_apply, shapeCast_self]
  refine congrArg (acc (ix2 u v) + ·) ?_
  refine (shapeCast_a_1a_apply _ _ u v).trans ?_
  refine (colSum_apply _ v).trans ?_
  refine Finset.sum_congr rfl fun r _ => ?_
  refine (Cert.LibColumn.shapeCast_a_a1_apply _ _ r v).trans ?_
  refine (rowSum_apply _ r).trans ?_
  rfl

/-- The last point's stored value: the accumulator times the reciprocal count. -/
theorem scale_apply (acc : Vec Ideal S1x1 .f32) (j : S1x1.Idx) : k0_pay3 acc j = acc j * lit 0x33000000#32 := by
  unfold k0_pay3
  rw [mulf_apply, shapeCast_self]
  rfl

/-- The first point's stored zero. -/
theorem zero_apply (j : S1x1.Idx) : (k0_pay1 (F := Ideal)) j = lit 0x00000000#32 := rfl

end Cert.KernelIdeal.Block

end
-- ==== Proof.SumSplit.lean ====
/-
  Regrouping a total over an [n, a · b] array by column blocks (here n = 8, a = 64, b = 65536): a column
  c < a · b is uniquely t · b + l with t < a and l < b, so the total over all (row, column) pairs is the
  total over the a blocks of each block's total over its n rows and b lanes. Stated in any commutative
  monoid: only the order and grouping of the summands change.
-/
import Idealize.ShloMosaic.Lib.ValueIdx
import Mathlib.Algebra.BigOperators.Fin
import Mathlib.Logic.Equiv.Fin.Basic

namespace Cert.FocalHuber

open Idealize.ShloMosaic Idealize.ShloMosaic.ValueIdx

/-- The column t · b + l of block t, lane l. -/
abbrev blockCol {a b : ℕ} (t : Fin a) (l : Fin b) : Fin (a * b) :=
  ⟨t.val * b + l.val, Nat.lt_of_lt_of_le (Nat.add_lt_add_left l.isLt _)
    (by rw [← Nat.succ_mul]; exact Nat.mul_le_mul_right _ t.isLt)⟩

/-- A total over a · b positions is the total over a blocks of each block's b positions. -/
theorem sum_fin_mul {M : Type*} [AddCommMonoid M] (a b : ℕ) (f : Fin (a * b) → M) :
    ∑ i, f i = ∑ t : Fin a, ∑ l : Fin b, f (blockCol t l) := by
  rw [← finProdFinEquiv.sum_comp, Fintype.sum_prod_type]
  refine Finset.sum_congr rfl fun t _ => Finset.sum_congr rfl fun l _ => ?_
  congr 1
  apply Fin.ext
  show l.val + b * t.val = t.val * b + l.val
  rw [Nat.mul_comm, Nat.add_comm]

/-- The total over an [n, a · b] array, block by block: blocks outermost, then rows, then lanes. -/
theorem sum_by_blocks {M : Type*} [AddCommMonoid M] (n a b : ℕ) (φ : (⟨2, ![n, a * b]⟩ : Shape).Idx → M) :
    ∑ k, φ k = ∑ t : Fin a, ∑ r : Fin n, ∑ l : Fin b, φ (ix2 r (blockCol t l)) :=
  calc ∑ k, φ k = ∑ r : Fin n, ∑ c : Fin (a * b), φ (ix2 r c) := sum_idx2 φ
    _ = ∑ r : Fin n, ∑ t : Fin a, ∑ l : Fin b, φ (ix2 r (blockCol t l)) :=
        Finset.sum_congr rfl fun r _ => sum_fin_mul a b fun c => φ (ix2 r c)
    _ = _ := Finset.sum_comm

end Cert.FocalHuber
-- ==== Proof.KernelValue.lean ====
/-
  The kernel's result, read on the extended reals: the total, over every (row, column) of the two
  [8, 4194304] arguments, of the element's loss in the kernel's spelling, times the reciprocal count.

  The one-element output block never moves, so its buffer is carried from point to point and written back
  once, after the last point. By induction on the point, after point n < 63 it holds the sum of the block
  totals of points 0 … n (the first point adds its total to a stored zero); the last point adds its total
  and multiplies by the reciprocal count. Block t of an argument is its columns t · 65536 … t · 65536 + 65535,
  all eight rows, so the 64 block totals add up to the total over the whole array. The one write-back writes
  the whole [1, 1] result array, and the host then reads its one element as a scalar.
-/
import proofs.«176596_j80341658239296_1_alg».proof.Proof.KernelBlock
import proofs.«176596_j80341658239296_1_alg».proof.Proof.SumSplit
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Block Cert.FocalHuber

variable (m : (ℓ : Loc nD τ sig) → Buf (Elt Ideal) ℓ) (ρ : Dev nD → PrngReg)

/-- The prediction and truth arrays, and their blocks at a grid point, at their literal types. -/
abbrev parr (c : Dev nD) : Vec Ideal S8x4194304 .f32 := m ((c : Thread nD τ).loc main_arg0)
abbrev tarr (c : Dev nD) : Vec Ideal S8x4194304 .f32 := m ((c : Thread nD τ).loc main_arg1)
abbrev pblk (c : Dev nD) (t : Fin cfg0.N) : Vec Ideal S8x65536 .f32 := iblk m c 0 t
abbrev tblk (c : Dev nD) (t : Fin cfg0.N) : Vec Ideal S8x65536 .f32 := iblk m c 1 t

/-- Both input windows' block index at point t is (0, t). -/
theorem idx_facts : ∀ t : Fin cfg0.N, (win0_0.index t 0 = 0 ∧ win0_0.index t 1 = t.val) ∧ (win0_1.index t 0 = 0 ∧ win0_1.index t 1 = t.val) :=
  (by decide +kernel : ∀ t : Fin grid0.N, (win0_0.index t 0 = 0 ∧ win0_0.index t 1 = t.val) ∧ (win0_1.index t 0 = 0 ∧ win0_1.index t 1 = t.val))

/-- Column t · 65536 + l of the whole array. -/
abbrev col (t : Fin cfg0.N) (l : Fin 65536) : Fin 4194304 :=
  ⟨t.val * 65536 + l.val, by have := t.isLt; have hN : cfg0.N = 64 := N_0; have := l.isLt; omega⟩

/-- The prediction block at point t holds, at (r, l), the prediction at (r, t · 65536 + l); -/
theorem pblk_apply (c : Dev nD) (t : Fin cfg0.N) (r : Fin 8) (l : Fin 65536) :
    pblk m c t (ix2 r l) = parr m c (ix2 r (col t l)) := by
  show ((cfg0.win 0).blk t).view.read (Elt Ideal) (V m c (Pipeline.arrRef spec0 0)) (ix2 r l) = _
  rw [View.read_apply]
  show V m c main_arg0 _ = m ((c : Thread nD τ).loc main_arg0) _
  rw [V_main_arg0]
  congr 1
  funext a
  apply Fin.ext
  match a with
  | ⟨0, _⟩ => show win0_0.index t 0 * 8 + 1 * r.val = r.val; rw [(idx_facts t).1.1]; omega
  | ⟨1, _⟩ => show win0_0.index t 1 * 65536 + 1 * l.val = t.val * 65536 + l.val; rw [(idx_facts t).1.2]; omega

/-- and the truth block likewise. -/
theorem tblk_apply (c : Dev nD) (t : Fin cfg0.N) (r : Fin 8) (l : Fin 65536) :
    tblk m c t (ix2 r l) = tarr m c (ix2 r (col t l)) := by
  show ((cfg0.win 1).blk t).view.read (Elt Ideal) (V m c (Pipeline.arrRef spec0 1)) (ix2 r l) = _
  rw [View.read_apply]
  show V m c main_arg1 _ = m ((c : Thread nD τ).loc main_arg1) _
  rw [V_main_arg1]
  congr 1
  funext a
  apply Fin.ext
  match a with
  | ⟨0, _⟩ => show win0_1.index t 0 * 8 + 1 * r.val = r.val; rw [(idx_facts t).2.1]; omega
  | ⟨1, _⟩ => show win0_1.index t 1 * 65536 + 1 * l.val = t.val * 65536 + l.val; rw [(idx_facts t).2.2]; omega

/-- The total loss of the block of point s (zero past the grid). -/
def blockTotal (c : Dev nD) (s : ℕ) : EReal :=
  if hs : s < cfg0.N then ∑ r : Fin 8, ∑ l : Fin 65536, eltK (pblk m c ⟨s, hs⟩ (ix2 r l)) (tblk m c ⟨s, hs⟩ (ix2 r l)) else 0

/-- After a point before the last, the carried buffer holds the sum of the block totals so far. -/
theorem outsAt_partial (c : Dev nD) : ∀ (n : ℕ) (h : n < cfg0.N), n < 63 → ∀ u v : Fin 1,
    outsAt0 m c n h (ix2 u v) = ∑ s ∈ Finset.range (n + 1), blockTotal m c s
  | 0, h, _, u, v => by
    rw [outsAt0_A m c ⟨0, h⟩ rfl (by dsimp only; omega), out_A]
    refine (step_apply (pblk m c ⟨0, h⟩) (tblk m c ⟨0, h⟩) (k0_pay1 (F := Ideal)) u v).trans ?_
    rw [Block.zero_apply, lit_zero, EReal.coe_zero, zero_add, show (0 + 1 : ℕ) = 1 from rfl, Finset.sum_range_one]
    unfold blockTotal
    rw [dif_pos h]
  | n + 1, h, hlt, u, v => by
    have h0 : ¬(⟨n + 1, h⟩ : Fin cfg0.N).val % 64 = 0 := by dsimp only; omega
    have h1 : ¬(⟨n + 1, h⟩ : Fin cfg0.N).val % 64 = 63 := by dsimp only; omega
    rw [outsAt0_B m c ⟨n + 1, h⟩ h0 h1, out_B]
    refine (step_apply (pblk m c ⟨n + 1, h⟩) (tblk m c ⟨n + 1, h⟩) (outsAt0 m c n (Nat.lt_of_succ_lt h)) u v).trans ?_
    rw [outsAt_partial c n (Nat.lt_of_succ_lt h) (by omega) u v, Finset.sum_range_succ _ (n + 1)]
    refine congrArg (_ + ·) ?_
    unfold blockTotal
    rw [dif_pos h]

/-- After the last point it holds the sum of all 64 block totals, times the reciprocal count. -/
theorem outsAt_last (c : Dev nD) (h : 63 < cfg0.N) (u v : Fin 1) :
    outsAt0 m c 63 h (ix2 u v) = (∑ s ∈ Finset.range 64, blockTotal m c s) * lit 0x33000000#32 := by
  have h0 : ¬(⟨63, h⟩ : Fin cfg0.N).val % 64 = 0 := by dsimp only; omega
  have h1 : (⟨63, h⟩ : Fin cfg0.N).val % 64 = 63 := rfl
  rw [outsAt0_C m c ⟨63, h⟩ h0 h1, out_C]
  refine (scale_apply _ _).trans ?_
  refine congrArg (· * lit 0x33000000#32) ?_
  refine (step_apply (pblk m c ⟨63, h⟩) (tblk m c ⟨63, h⟩) (outsAt0 m c 62 (by omega)) u v).trans ?_
  rw [outsAt_partial m c 62 (by omega) (by norm_num) u v, Finset.sum_range_succ _ 63]
  refine congrArg (_ + ·) ?_
  unfold blockTotal
  rw [dif_pos h]

/-- The 64 block totals add up to the total over the whole array. -/
theorem total_eq (c : Dev nD) :
    ∑ s ∈ Finset.range 64, blockTotal m c s = ∑ k : S8x4194304.Idx, eltK (parr m c k) (tarr m c k) := by
  have hN : cfg0.N = 64 := N_0
  rw [sum_by_blocks 8 64 65536 fun k => eltK (parr m c k) (tarr m c k), Finset.sum_range]
  refine Finset.sum_congr rfl fun t _ => ?_
  have ht : t.val < cfg0.N := by rw [hN]; exact t.isLt
  unfold blockTotal
  rw [dif_pos ht]
  refine Finset.sum_congr rfl fun r _ => Finset.sum_congr rfl fun l _ => ?_
  rw [pblk_apply, tblk_apply]

/-- The mean loss, the kernel's spelling. -/
def mean (c : Dev nD) : EReal := (∑ k : S8x4194304.Idx, eltK (parr m c k) (tarr m c k)) * lit 0x33000000#32

/-- The result array's contents: its one element is the mean. -/
abbrev result (c : Dev nD) : Buf (Elt Ideal) ((c : Thread nD τ).loc main_v0) := fun _ => mean m c

/-- What the last point leaves IS the result. -/
theorem outsAt_result (c : Dev nD) (h : 63 < cfg0.N) : outsAt0 m c 63 h = result m c := by
  funext j
  obtain ⟨u, v, rfl⟩ : ∃ (u v : Fin 1), j = ix2 u v := ⟨j 0, j 1, eq_ix2 j⟩
  rw [outsAt_last m c h u v, total_eq]
  rfl

/-- The last point. -/
abbrev tLast : Fin cfg0.N := ⟨63, by rw [show cfg0.N = 64 from N_0]; decide⟩

/-- The one write-back, after the last point, writes the result: the block at index (0, 0) is the whole array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  obtain rfl : t = tLast := Fin.ext h63
  show (cfg0.win 2).cut (grid0.coords tLast) ((dats m 0 c).after 2 tLast) = _
  rw [after0_2, outsAt_result]
  have hz' : (fun a => win0_2.index tLast a * main_v0.ty.shape.size a) = fun _ => 0 := funext fun a => by fin_cases a <;> decide +kernel
  exact (Memref.read_access_unit_zero (Elt Ideal) main_v0 hz' (fun a => by rw [congrFun hz' a]; simp) (result m c)).symm

/-- So the result array ends holding the result. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- After the region the host reads the one element as a scalar: the returned value is the mean. -/
theorem tail_eq (c : Dev nD) :
    Pipeline.afterTail₀ cfgs (dats m) 0 (V0 m) [hostOps1] c main_v1 = fun _ => mean m c := by
  unfold Pipeline.afterTail₀
  show StableHlo.after hostOps1 _ (Proc.devRef .tc main_v1) = _
  after_results
  rw [(Pipeline.withArrays_arr spec0 launch0.win.arr_inj c _ _ 2).trans (final m c)]
  rfl

/-- The run, read: the returned scalar is the mean, the arguments unchanged. -/
theorem run : θ_run defs (onTc (τ := τ) (main (F := Ideal))) ⟨m, fun _ => 0, ρ⟩ fun r => ∀ c : Dev nD,
      r.2.mem ((c : Thread nD τ).loc main_v1) = (fun _ => mean m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.Mean.lean ====
/-
  The two means agree: the reference adds every element's loss to a zero and divides by the count 2^25;
  the kernel multiplies the total by 2^-25. Element by element the two spellings of the loss are one
  function; adding to zero changes nothing; and dividing by a nonzero real is multiplying by its
  reciprocal on every extended real.
-/
import proofs.«176596_j80341658239296_1_alg».proof.Proof.Elt

noncomputable section

namespace Cert.FocalHuber

open Idealize.ShloMosaic

theorem lit_count : lit 0x4C000000#32 = ((33554432 : ℝ) : EReal) := Lit.count
theorem lit_invCount : lit 0x33000000#32 = ((1 / 33554432 : ℝ) : EReal) := Lit.invCount

theorem mean_eq {ι : Type} [Fintype ι] (p t : ι → EReal) :
    Ideal.div (lit 0x00000000#32 + ∑ k, eltR (p k) (t k)) (lit 0x4C000000#32)
      = (∑ k, eltK (p k) (t k)) * lit 0x33000000#32 := by
  rw [lit_zero, EReal.coe_zero, zero_add, lit_count, Ideal.div_coe (by norm_num : (33554432 : ℝ) ≠ 0), lit_invCount]
  refine congrArg (· * ((1 / 33554432 : ℝ) : EReal)) ?_
  exact Finset.sum_congr rfl fun k _ => eltR_eq _ _

end Cert.FocalHuber

end
-- ==== Proof.lean ====
/-
  The mean duration-aware focal Huber loss of two [8, 4194304] arrays: the Pallas kernel streams 64 column
  blocks, accumulates each block's total loss into a one-element output and scales by 2^-25 at the last
  block; the reference flattens both arrays, computes every element's loss, sums and divides by 2^25.

  The three frames: the kernel's two (at the machine's words and at the extended reals) are the generated
  frame certificates; the reference's is its run with the result dropped. The ideal pass rewrote nothing,
  so the kernel's idealization is its own text. Over the extended reals both programs return one number:
  the kernel's run ends at (the total over all (row, column) of the element's loss) · 2^-25, the
  reference's at (0 + that total, in its own spelling) / 2^25, and the two are equal for every input,
  finite or not (the precondition is not used).
-/
import proofs.«176596_j80341658239296_1_alg».proof.Defs
import proofs.«176596_j80341658239296_1_alg».proof.Proof.Gen.Kernel
import proofs.«176596_j80341658239296_1_alg».proof.Proof.Gen.Kernel.Frame
import proofs.«176596_j80341658239296_1_alg».proof.Proof.Gen.KernelIdeal
import proofs.«176596_j80341658239296_1_alg».proof.Proof.Gen.KernelIdeal.Frame
import proofs.«176596_j80341658239296_1_alg».proof.Proof.Gen.ReferenceIdeal
import proofs.«176596_j80341658239296_1_alg».proof.Proof.Gen.Pre_finite_inputs
import proofs.«176596_j80341658239296_1_alg».proof.Proof.RefValue
import proofs.«176596_j80341658239296_1_alg».proof.Proof.KernelValue
import proofs.«176596_j80341658239296_1_alg».proof.Proof.Mean

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the mean loss of the arguments. -/
theorem algebraic : Cert.algebraic_KernelIdeal_ReferenceIdeal := by
  intro m ρ m' ρ' _ hagree
  refine ⟨fun c _ => Cert.KernelIdeal.KValue.mean m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  funext j
  rw [Cert.ReferenceIdeal.RefValue.out_apply]
  exact Cert.FocalHuber.mean_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
